-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S1025x2048 : Shape := ⟨2, ![1025, 2048]⟩
abbrev S84x1025 : Shape := ⟨2, ![84, 1025]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel
  bcast_S_S1025x2048 : S_.BroadcastsInDim S1025x2048 (![] : Fin 0 → Fin S1025x2048.rank)
  reducesTo_S1025x2048_S_d0_1 : S1025x2048.ReducesTo [0, 1] S_
  bcast_S_S84x1025 : S_.BroadcastsInDim S84x1025 (![] : Fin 0 → Fin S84x1025.rank)
  reducesTo_S84x1025_S_d0_1 : S84x1025.ReducesTo [0, 1] S_

variable [Facts]

def fn_part1 {F : FTy → Type} [FloatOps F] (main_arg4 : FVec F S84x1025 .f32) (main_v13 : IVec S_ 1) (main_v16 : IVec S84x1025 1) : IVec S_ 1 :=
  let main_c_5 : IVec S_ 1 := constantI S_ 1 1#1
  let main_v17 : IVec S_ 1 := (fun x v => Host.reduce IntOp.andi x v reducesTo_S84x1025_S_d0_1 h_S_) main_v16 main_c_5
  let main_v18 : IVec S_ 1 := andi main_v13 main_v17
  let main_v19 : FVec F S84x1025 .f32 := Host.absf main_arg4
  let main_cst_6 : FVec F S_ .f32 := constant S_ .f32 0x7F800000#32
  let main_v20 : FVec F S84x1025 .f32 := broadcastInDim S84x1025 ![] bcast_S_S84x1025 main_cst_6
  let main_v21 : IVec S84x1025 1 := cmpf .olt main_v19 main_v20
  let main_c_7 : IVec S_ 1 := constantI S_ 1 1#1
  let main_v22 : IVec S_ 1 := (fun x v => Host.reduce IntOp.andi x v reducesTo_S84x1025_S_d0_1 h_S_) main_v21 main_c_7
  let main_v23 : IVec S_ 1 := andi main_v18 main_v22
  main_v23

def fn {F : FTy → Type} [FloatOps F] (main_arg0 : FVec F S8388608 .f32) (main_arg1 : FVec F S1025x2048 .f32) (main_arg2 : FVec F S1025x2048 .f32) (main_arg3 : FVec F S84x1025 .f32) (main_arg4 : FVec F S84x1025 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S1025x2048 .f32 := Host.absf main_arg1
  let main_cst_0 : FVec F S_ .f32 := constant S_ .f32 0x7F800000#32
  let main_v5 : FVec F S1025x2048 .f32 := broadcastInDim S1025x2048 ![] bcast_S_S1025x2048 main_cst_0
  let main_v6 : IVec S1025x2048 1 := cmpf .olt main_v4 main_v5
  let main_c_1 : IVec S_ 1 := constantI S_ 1 1#1
  let main_v7 : IVec S_ 1 := (fun x v => Host.reduce IntOp.andi x v reducesTo_S1025x2048_S_d0_1 h_S_) main_v6 main_c_1
  let main_v8 : IVec S_ 1 := andi main_v3 main_v7
  let main_v9 : FVec F S1025x2048 .f32 := Host.absf main_arg2
  let main_cst_2 : FVec F S_ .f32 := constant S_ .f32 0x7F800000#32
  let main_v10 : FVec F S1025x2048 .f32 := broadcastInDim S1025x2048 ![] bcast_S_S1025x2048 main_cst_2
  let main_v11 : IVec S1025x2048 1 := cmpf .olt main_v9 main_v10
  let main_c_3 : IVec S_ 1 := constantI S_ 1 1#1
  let main_v12 : IVec S_ 1 := (fun x v => Host.reduce IntOp.andi x v reducesTo_S1025x2048_S_d0_1 h_S_) main_v11 main_c_3
  let main_v13 : IVec S_ 1 := andi main_v8 main_v12
  let main_v14 : FVec F S84x1025 .f32 := Host.absf main_arg3
  let main_cst_4 : FVec F S_ .f32 := constant S_ .f32 0x7F800000#32
  let main_v15 : FVec F S84x1025 .f32 := broadcastInDim S84x1025 ![] bcast_S_S84x1025 main_cst_4
  let main_v16 : IVec S84x1025 1 := cmpf .olt main_v14 main_v15
  fn_part1 (F := F) main_arg4 main_v13 main_v16
-- ==== Kernel.lean ====
abbrev S8388608 : Shape := ⟨1, ![8388608]⟩
abbrev S1025x2048 : Shape := ⟨2, ![1025, 2048]⟩
abbrev S84x1025 : Shape := ⟨2, ![84, 1025]⟩
abbrev S16384x512 : Shape := ⟨2, ![16384, 512]⟩
abbrev S_ : Shape := ⟨0, ![]⟩
abbrev S16392x512 : Shape := ⟨2, ![16392, 512]⟩
abbrev S2048x1025 : Shape := ⟨2, ![2048, 1025]⟩
abbrev S1025x84 : Shape := ⟨2, ![1025, 84]⟩
abbrev S16384x84 : Shape := ⟨2, ![16384, 84]⟩
abbrev S512x512 : Shape := ⟨2, ![512, 512]⟩
abbrev S512x84 : Shape := ⟨2, ![512, 84]⟩
abbrev S512x1025 : Shape := ⟨2, ![512, 1025]⟩
abbrev S16381x84 : Shape := ⟨2, ![16381, 84]⟩
abbrev S84x16381 : Shape := ⟨2, ![84, 16381]⟩
abbrev S1x84x16381 : Shape := ⟨3, ![1, 84, 16381]⟩

abbrev nBuf : Space → Nat
  | .hbm => 26
  | .vmem => 14
  | .smem => 0
  | _ => 0

abbrev bufTy : (tb : Table) → Fin (tcTables nBuf tb) → BufTy
  | .hbm, ⟨0, _⟩ => ⟨S8388608, .f32⟩
  | .hbm, ⟨1, _⟩ => ⟨S1025x2048, .f32⟩
  | .hbm, ⟨2, _⟩ => ⟨S1025x2048, .f32⟩
  | .hbm, ⟨3, _⟩ => ⟨S84x1025, .f32⟩
  | .hbm, ⟨4, _⟩ => ⟨S84x1025, .f32⟩
  | .hbm, ⟨5, _⟩ => ⟨S16384x512, .f32⟩
  | .hbm, ⟨6, _⟩ => ⟨S_, .i32⟩
  | .hbm, ⟨7, _⟩ => ⟨S_, .f32⟩
  | .hbm, ⟨8, _⟩ => ⟨S16392x512, .f32⟩
  | .hbm, ⟨9, _⟩ => ⟨S16392x512, .bf16⟩
  | .hbm, ⟨10, _⟩ => ⟨S16384x512, .bf16⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S2048x1025, .f32⟩
  | .hbm, ⟨15, _⟩ => ⟨S2048x1025, .bf16⟩
  | .hbm, ⟨16, _⟩ => ⟨S2048x1025, .f32⟩
  | .hbm, ⟨17, _⟩ => ⟨S2048x1025, .bf16⟩
  | .hbm, ⟨18, _⟩ => ⟨S1025x84, .f32⟩
  | .hbm, ⟨19, _⟩ => ⟨S1025x84, .bf16⟩
  | .hbm, ⟨20, _⟩ => ⟨S1025x84, .f32⟩
  | .hbm, ⟨21, _⟩ => ⟨S1025x84, .bf16⟩
  | .hbm, ⟨22, _⟩ => ⟨S16384x84, .f32⟩
  | .hbm, ⟨23, _⟩ => ⟨S16381x84, .f32⟩
  | .hbm, ⟨24, _⟩ => ⟨S84x16381, .f32⟩
  | .hbm, ⟨25, _⟩ => ⟨S1x84x16381, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2048x1025, .bf16⟩
  | .local _ .vmem, ⟨9, _⟩ => ⟨S2048x1025, .bf16⟩
  | .local _ .vmem, ⟨10, _⟩ => ⟨S1025x84, .bf16⟩
  | .local _ .vmem, ⟨11, _⟩ => ⟨S1025x84, .bf16⟩
  | .local _ .vmem, ⟨12, _⟩ => ⟨S512x84, .f32⟩
  | .local _ .vmem, ⟨13, _⟩ => ⟨S512x84, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1025 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1025 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1025x84 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1025x84 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x84 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8388608_S16384x512 : S8388608.ShapeCasts S16384x512
  pads_S16384x512_S16392x512_080_000 : S16384x512.Pads (![0, 0] : Fin 2 → Nat) ![8, 0] ![0, 0] S16392x512
  h_S_ : 0 < S_.numel
  bitsLt_bf16_f32 : FTy.bits .bf16 < FTy.bits .f32
  slices_S16392x512_S16384x512_0_0 : S16392x512.Slices ![0, 0] S16384x512
  slices_S16392x512_S16384x512_1_0 : S16392x512.Slices ![1, 0] S16384x512
  slices_S16392x512_S16384x512_2_0 : S16392x512.Slices ![2, 0] S16384x512
  slices_S16392x512_S16384x512_3_0 : S16392x512.Slices ![3, 0] S16384x512
  transposes_S1025x2048_S2048x1025_1_0 : S1025x2048.Transposes [1, 0] S2048x1025
  transposes_S84x1025_S1025x84_1_0 : S84x1025.Transposes [1, 0] S1025x84
  inb_S2048x1025_S512x1025_0_0 : ∀ a, (![0, 0] : Fin 2 → Nat) a + S512x1025.size a ≤ S2048x1025.size a
  h_S512x1025 : 0 < S512x1025.numel
  shapeCasts_S512x1025_S512x1025 : S512x1025.ShapeCasts S512x1025
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x1025_S512x1025_512_0 : ∀ a, (![512, 0] : Fin 2 → Nat) a + S512x1025.size a ≤ S2048x1025.size a
  inb_S2048x1025_S512x1025_1024_0 : ∀ a, (![1024, 0] : Fin 2 → Nat) a + S512x1025.size a ≤ S2048x1025.size a
  inb_S2048x1025_S512x1025_1536_0 : ∀ a, (![1536, 0] : Fin 2 → Nat) a + S512x1025.size a ≤ S2048x1025.size a
  inb_S1025x84_S1025x84_0_0 : ∀ a, (![0, 0] : Fin 2 → Nat) a + S1025x84.size a ≤ S1025x84.size a
  h_S1025x84 : 0 < S1025x84.numel
  shapeCasts_S1025x84_S1025x84 : S1025x84.ShapeCasts S1025x84
  inb_S512x84_S512x84_0_0 : ∀ a, (![0, 0] : Fin 2 → Nat) a + S512x84.size a ≤ S512x84.size a
  h_S512x84 : 0 < S512x84.numel
  slices_S16384x84_S16381x84_0_0 : S16384x84.Slices ![0, 0] S16381x84
  transposes_S16381x84_S84x16381_1_0 : S16381x84.Transposes [1, 0] S84x16381
  bcast_S84x16381_S1x84x16381_1_2 : S84x16381.BroadcastsInDim S1x84x16381 (![1, 2] : Fin 2 → Fin S1x84x16381.rank)
  dot_S512x512_S512x1025_S512x1025_1_0_0_1_n_n_wf : DotDims.WF S512x512 S512x1025 S512x1025 [1] [0] [0] [1] [] []
  dot_S512x1025_S1025x84_S512x84_1_0_0_1_n_n_wf : DotDims.WF S512x1025 S1025x84 S512x84 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .bf16 = 32 ∨ (Rect.block (s := S16384x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .bf16 = 32 ∨ (Rect.block (s := S16384x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .bf16 = 32 ∨ (Rect.block (s := S16384x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .bf16 = 32 ∨ (Rect.block (s := S16384x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1025.size a ≤ S2048x1025.size a
  hwx0_4 : ∀ i : grid0.Coords, EltTy.bits .bf16 = 32 ∨ (Rect.block (s := S2048x1025) S2048x1025.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1025.size a ≤ S2048x1025.size a
  hwx0_5 : ∀ i : grid0.Coords, EltTy.bits .bf16 = 32 ∨ (Rect.block (s := S2048x1025) S2048x1025.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1025x84.size a ≤ S1025x84.size a
  hwx0_6 : ∀ i : grid0.Coords, EltTy.bits .bf16 = 32 ∨ (Rect.block (s := S1025x84) S1025x84.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1025x84.size a ≤ S1025x84.size a
  hwx0_7 : ∀ i : grid0.Coords, EltTy.bits .bf16 = 32 ∨ (Rect.block (s := S1025x84) S1025x84.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x84.size a ≤ S16384x84.size a
  hwx0_8 : ∀ i : grid0.Coords, EltTy.bits .f32 = 32 ∨ (Rect.block (s := S16384x84) S512x84.size (cc0_transform_8 i) (hinb0_8 i)).WholeWords (EltTy.packing .f32)

variable [Facts₀]

def dot_S512x512_S512x1025_S512x1025_1_0_0_1_n_n : DotDims S512x512 S512x1025 S512x1025 where
  lhsContracting := [1]
  rhsContracting := [0]
  lhsNonContracting := [0]
  rhsNonContracting := [1]
  lhsBatch := []
  rhsBatch := []
  wf := dot_S512x512_S512x1025_S512x1025_1_0_0_1_n_n_wf
def dot_S512x1025_S1025x84_S512x84_1_0_0_1_n_n : DotDims S512x1025 S1025x84 S512x84 where
  lhsContracting := [1]
  rhsContracting := [0]
  lhsNonContracting := [0]
  rhsNonContracting := [1]
  lhsBatch := []
  rhsBatch := []
  wf := dot_S512x1025_S1025x84_S512x84_1_0_0_1_n_n_wf

abbrev win0_0 : Pipeline.Window sig grid0 :=
  Pipeline.Window.ofSpec (Memref.whole main_v3) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x1025.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2048x1025.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1025x84.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1025x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S512x84.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8388608 : Shape := ⟨1, ![8388608]⟩
abbrev S1025x2048 : Shape := ⟨2, ![1025, 2048]⟩
abbrev S84x1025 : Shape := ⟨2, ![84, 1025]⟩
abbrev S16381 : Shape := ⟨1, ![16381]⟩
abbrev S16381x1 : Shape := ⟨2, ![16381, 1]⟩
abbrev S_ : Shape := ⟨0, ![]⟩
abbrev S2048 : Shape := ⟨1, ![2048]⟩
abbrev S1x2048 : Shape := ⟨2, ![1, 2048]⟩
abbrev S16381x2048 : Shape := ⟨2, ![16381, 2048]⟩
abbrev S16381x2048x1 : Shape := ⟨3, ![16381, 2048, 1]⟩
abbrev S1025x16381 : Shape := ⟨2, ![1025, 16381]⟩
abbrev S84x16381 : Shape := ⟨2, ![84, 16381]⟩
abbrev S1x84x16381 : Shape := ⟨3, ![1, 84, 16381]⟩

abbrev nBuf : Space → Nat
  | .hbm => 37
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S1025x2048, .f32⟩
  | .hbm, ⟨2, _⟩ => ⟨S1025x2048, .f32⟩
  | .hbm, ⟨3, _⟩ => ⟨S84x1025, .f32⟩
  | .hbm, ⟨4, _⟩ => ⟨S84x1025, .f32⟩
  | .hbm, ⟨5, _⟩ => ⟨S16381, .i32⟩
  | .hbm, ⟨6, _⟩ => ⟨S16381x1, .i32⟩
  | .hbm, ⟨7, _⟩ => ⟨S_, .i32⟩
  | .hbm, ⟨8, _⟩ => ⟨S16381x1, .i32⟩
  | .hbm, ⟨9, _⟩ => ⟨S16381x1, .i32⟩
  | .hbm, ⟨10, _⟩ => ⟨S2048, .i32⟩
  | .hbm, ⟨11, _⟩ => ⟨S1x2048, .i32⟩
  | .hbm, ⟨12, _⟩ => ⟨S16381x2048, .i32⟩
  | .hbm, ⟨13, _⟩ => ⟨S16381x2048, .i32⟩
  | .hbm, ⟨14, _⟩ => ⟨S16381x2048, .i32⟩
  | .hbm, ⟨15, _⟩ => ⟨S_, .i32⟩
  | .hbm, ⟨16, _⟩ => ⟨S16381x2048, .i32⟩
  | .hbm, ⟨17, _⟩ => ⟨S16381x2048, .i1⟩
  | .hbm, ⟨18, _⟩ => ⟨S_, .i32⟩
  | .hbm, ⟨19, _⟩ => ⟨S16381x2048, .i32⟩
  | .hbm, ⟨20, _⟩ => ⟨S16381x2048, .i32⟩
  | .hbm, ⟨21, _⟩ => ⟨S16381x2048, .i32⟩
  | .hbm, ⟨22, _⟩ => ⟨S16381x2048x1, .i32⟩
  | .hbm, ⟨23, _⟩ => ⟨S16381x2048, .f32⟩
  | .hbm, ⟨24, _⟩ => ⟨S1025x16381, .f32⟩
  | .hbm, ⟨25, _⟩ => ⟨S1025x16381, .f32⟩
  | .hbm, ⟨26, _⟩ => ⟨S84x16381, .f32⟩
  | .hbm, ⟨27, _⟩ => ⟨S84x16381, .f32⟩
  | .hbm, ⟨28, _⟩ => ⟨S84x16381, .f32⟩
  | .hbm, ⟨29, _⟩ => ⟨S84x16381, .f32⟩
  | .hbm, ⟨30, _⟩ => ⟨S84x16381, .f32⟩
  | .hbm, ⟨31, _⟩ => ⟨S84x16381, .f32⟩
  | .hbm, ⟨32, _⟩ => ⟨S84x16381, .f32⟩
  | .hbm, ⟨33, _⟩ => ⟨S84x16381, .f32⟩
  | .hbm, ⟨34, _⟩ => ⟨S84x16381, .f32⟩
  | .hbm, ⟨35, _⟩ => ⟨S84x16381, .f32⟩
  | .hbm, ⟨36, _⟩ => ⟨S1x84x16381, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  bcast_S16381_S16381x1_0 : S16381.BroadcastsInDim S16381x1 (![0] : Fin 1 → Fin S16381x1.rank)
  bcast_S_S16381x1 : S_.BroadcastsInDim S16381x1 (![] : Fin 0 → Fin S16381x1.rank)
  bcast_S2048_S1x2048_1 : S2048.BroadcastsInDim S1x2048 (![1] : Fin 1 → Fin S1x2048.rank)
  bcast_S16381x1_S16381x2048_0_1 : S16381x1.BroadcastsInDim S16381x2048 (![0, 1] : Fin 2 → Fin S16381x2048.rank)
  bcast_S1x2048_S16381x2048_0_1 : S1x2048.BroadcastsInDim S16381x2048 (![0, 1] : Fin 2 → Fin S16381x2048.rank)
  bcast_S_S16381x2048 : S_.BroadcastsInDim S16381x2048 (![] : Fin 0 → Fin S16381x2048.rank)
  bcast_S16381x2048_S16381x2048x1_0_1 : S16381x2048.BroadcastsInDim S16381x2048x1 (![0, 1] : Fin 2 → Fin S16381x2048x1.rank)
  bcast_S84x16381_S1x84x16381_1_2 : S84x16381.BroadcastsInDim S1x84x16381 (![1, 2] : Fin 2 → Fin S1x84x16381.rank)
  gather_S8388608_S16381x2048x1_S16381x2048_n_0_n_n_0_2_1_wf : GatherDims.WF S8388608 S16381x2048x1 S16381x2048 [] [0] [] [0] [] 2 ![1]
  dot_S1025x2048_S16381x2048_S1025x16381_1_1_0_0_n_n_wf : DotDims.WF S1025x2048 S16381x2048 S1025x16381 [1] [1] [0] [0] [] []
  dot_S84x1025_S1025x16381_S84x16381_1_0_0_1_n_n_wf : DotDims.WF S84x1025 S1025x16381 S84x16381 [1] [0] [0] [1] [] []

variable [Facts₀]

def gather_S8388608_S16381x2048x1_S16381x2048_n_0_n_n_0_2_1 : GatherDims S8388608 S16381x2048x1 S16381x2048 where
  offsetDims := []
  collapsedSliceDims := [0]
  operandBatchingDims := []
  startIndicesBatchingDims := []
  startIndexMap := [0]
  indexVectorDim := 2
  sliceSizes := ![1]
  wf := gather_S8388608_S16381x2048x1_S16381x2048_n_0_n_n_0_2_1_wf
def dot_S1025x2048_S16381x2048_S1025x16381_1_1_0_0_n_n : DotDims S1025x2048 S16381x2048 S1025x16381 where
  lhsContracting := [1]
  rhsContracting := [1]
  lhsNonContracting := [0]
  rhsNonContracting := [0]
  lhsBatch := []
  rhsBatch := []
  wf := dot_S1025x2048_S16381x2048_S1025x16381_1_1_0_0_n_n_wf
def dot_S84x1025_S1025x16381_S84x16381_1_0_0_1_n_n : DotDims S84x1025 S1025x16381 S84x16381 where
  lhsContracting := [1]
  rhsContracting := [0]
  lhsNonContracting := [0]
  rhsNonContracting := [1]
  lhsBatch := []
  rhsBatch := []
  wf := dot_S84x1025_S1025x16381_S84x16381_1_0_0_1_n_n_wf

class Facts : Prop extends Facts₀ where

variable [Facts]
-- ==== Proof.Spec.lean ====
/-
  The mathematics of the constant-Q magnitude, with no program in sight.

  A frame of 2048 samples starts every 512 samples; a frame's Fourier coefficient at bin `k` is the sum over the
  frame of `w[k, n] · x[n]` (cosine and sine tables), the transform's real and imaginary parts are
  `Σₖ kr·FR − Σₖ ki·FI` and `Σₖ kr·FI + Σₖ ki·FR`, and the result is `√(re² + im²)`.
  One side computes a frame's coefficient as ONE sum over the 2048 samples; the other cuts the frame into its four
  blocks of 512, sums each block against the matching 512 rows of the transposed table and adds the four partial
  sums to a zero accumulator, then multiplies by the transposed `kr` / `ki` from the other side. On the extended
  reals both are the same number: a finite sum may be cut into consecutive blocks and regrouped (addition is
  commutative and associative there), and multiplication commutes. No finiteness is used.
-/
import Idealize.ShloMosaic.PureOps.Ideal
import Idealize.ShloMosaic.Lib.ValueIdx

noncomputable section

open scoped BigOperators

namespace Cert.Cqt

open Idealize.ShloMosaic Idealize.ShloMosaic.ValueIdx

/-- A sum over 2048 consecutive indices is the sum of its four blocks of 512, added in order to `0`. -/
theorem sum_four_blocks {M : Type} [AddCommMonoid M] (g : Fin 2048 → M) :
    ∑ n, g n = (((0 + ∑ j : Fin 512, g ⟨j.val, by omega⟩) + ∑ j : Fin 512, g ⟨512 + j.val, by omega⟩)
      + ∑ j : Fin 512, g ⟨1024 + j.val, by omega⟩) + ∑ j : Fin 512, g ⟨1536 + j.val, by omega⟩ := by
  have e : ∑ n, g n = ∑ r : Fin 4, ∑ j : Fin 512, g (finProdFinEquiv (r, j)) :=
    (Equiv.sum_comp (finProdFinEquiv (m := 4) (n := 512)) g).symm.trans (Fintype.sum_prod_type _)
  rw [e, Fin.sum_univ_four, zero_add]
  have h0 : ∀ j : Fin 512, g (finProdFinEquiv ((0 : Fin 4), j)) = g ⟨j.val, by omega⟩ :=
    fun j => congrArg g (Fin.ext (by show j.val + 512 * 0 = j.val; omega))
  have h1 : ∀ j : Fin 512, g (finProdFinEquiv ((1 : Fin 4), j)) = g ⟨512 + j.val, by omega⟩ :=
    fun j => congrArg g (Fin.ext (by show j.val + 512 * 1 = 512 + j.val; omega))
  have h2 : ∀ j : Fin 512, g (finProdFinEquiv ((2 : Fin 4), j)) = g ⟨1024 + j.val, by omega⟩ :=
    fun j => congrArg g (Fin.ext (by show j.val + 512 * 2 = 1024 + j.val; omega))
  have h3 : ∀ j : Fin 512, g (finProdFinEquiv ((3 : Fin 4), j)) = g ⟨1536 + j.val, by omega⟩ :=
    fun j => congrArg g (Fin.ext (by show j.val + 512 * 3 = 1536 + j.val; omega))
  simp only [h0, h1, h2, h3]

/-- The blocked accumulation of one coefficient: the frame's four blocks `a0 … a3` against the matching quarters of a
    table column `w`, added in order to a zero accumulator. -/
def accum4 (a0 a1 a2 a3 : Fin 512 → EReal) (w : Fin 2048 → EReal) : EReal :=
  (((0 + ∑ j : Fin 512, a0 j * w ⟨j.val, by omega⟩) + ∑ j : Fin 512, a1 j * w ⟨512 + j.val, by omega⟩)
    + ∑ j : Fin 512, a2 j * w ⟨1024 + j.val, by omega⟩) + ∑ j : Fin 512, a3 j * w ⟨1536 + j.val, by omega⟩

/-- The magnitude at one (frame, bin) the blocked way: tables transposed (`wc n k`), `kr` / `ki` columns on the right. -/
def blockedPt (a0 a1 a2 a3 : Fin 512 → EReal) (wc ws : Fin 2048 → Fin 1025 → EReal) (kr ki : Fin 1025 → EReal) : EReal :=
  Ideal.sqrt
    (((∑ k, accum4 a0 a1 a2 a3 (fun n => wc n k) * kr k) - (∑ k, accum4 a0 a1 a2 a3 (fun n => ws n k) * ki k))
        * ((∑ k, accum4 a0 a1 a2 a3 (fun n => wc n k) * kr k) - (∑ k, accum4 a0 a1 a2 a3 (fun n => ws n k) * ki k))
      + ((∑ k, accum4 a0 a1 a2 a3 (fun n => wc n k) * ki k) + (∑ k, accum4 a0 a1 a2 a3 (fun n => ws n k) * kr k))
        * ((∑ k, accum4 a0 a1 a2 a3 (fun n => wc n k) * ki k) + (∑ k, accum4 a0 a1 a2 a3 (fun n => ws n k) * kr k)))

/-- The magnitude at one (frame, bin) the direct way: the frame `x` whole, the tables as given (`wc k n`). -/
def directPt (x : Fin 2048 → EReal) (wc ws : Fin 1025 → Fin 2048 → EReal) (kr ki : Fin 1025 → EReal) : EReal :=
  Ideal.sqrt
    (((∑ k, kr k * ∑ n, wc k n * x n) - (∑ k, ki k * ∑ n, ws k n * x n))
        * ((∑ k, kr k * ∑ n, wc k n * x n) - (∑ k, ki k * ∑ n, ws k n * x n))
      + ((∑ k, kr k * ∑ n, ws k n * x n) + (∑ k, ki k * ∑ n, wc k n * x n))
        * ((∑ k, kr k * ∑ n, ws k n * x n) + (∑ k, ki k * ∑ n, wc k n * x n)))

/-- The blocked accumulation over the four quarters of a frame is the frame's one sum. -/
theorem accum4_quarters (x w : Fin 2048 → EReal) :
    accum4 (fun j => x ⟨j.val, by omega⟩) (fun j => x ⟨512 + j.val, by omega⟩) (fun j => x ⟨1024 + j.val, by omega⟩)
      (fun j => x ⟨1536 + j.val, by omega⟩) w = ∑ n, w n * x n := by
  have e1 : accum4 (fun j => x ⟨j.val, by omega⟩) (fun j => x ⟨512 + j.val, by omega⟩) (fun j => x ⟨1024 + j.val, by omega⟩)
      (fun j => x ⟨1536 + j.val, by omega⟩) w = ∑ n, x n * w n := (sum_four_blocks (fun n => x n * w n)).symm
  rw [e1]
  exact Finset.sum_congr rfl fun n _ => mul_comm _ _

/-- THE LAW: blocked and direct agree. -/
theorem blocked_eq_direct (x : Fin 2048 → EReal) (wc ws : Fin 1025 → Fin 2048 → EReal) (kr ki : Fin 1025 → EReal) :
    blockedPt (fun j => x ⟨j.val, by omega⟩) (fun j => x ⟨512 + j.val, by omega⟩) (fun j => x ⟨1024 + j.val, by omega⟩)
      (fun j => x ⟨1536 + j.val, by omega⟩) (fun n k => wc k n) (fun n k => ws k n) kr ki = directPt x wc ws kr ki := by
  unfold blockedPt directPt
  simp only [accum4_quarters x]
  have hc : ∀ (u v : Fin 1025 → EReal), ∑ k, u k * v k = ∑ k, v k * u k :=
    fun u v => Finset.sum_congr rfl fun k _ => mul_comm _ _
  rw [hc (fun k => ∑ n, wc k n * x n) kr, hc (fun k => ∑ n, ws k n * x n) ki,
    hc (fun k => ∑ n, wc k n * x n) ki, hc (fun k => ∑ n, ws k n * x n) kr,
    add_comm (∑ k, ki k * ∑ n, wc k n * x n) (∑ k, kr k * ∑ n, ws k n * x n)]

/-! ## The whole result, as one function of the five arrays -/

/-- Sample `n` of frame `f` is sample `512 f + n` of the signal: inside it for each of the 16381 frames. -/
abbrev samp (f : Fin 16381) (n : Fin 2048) : Fin 8388608 := ⟨512 * f.val + n.val, by omega⟩

/-- The constant-Q magnitude `[1, 84, 16381]` of a signal `x` under tables `wc`, `ws` `[1025, 2048]` and `kr`, `ki` `[84, 1025]`. -/
def mag (x : (⟨1, ![8388608]⟩ : Shape).Idx → EReal) (wc ws : (⟨2, ![1025, 2048]⟩ : Shape).Idx → EReal)
    (kr ki : (⟨2, ![84, 1025]⟩ : Shape).Idx → EReal) : (⟨3, ![1, 84, 16381]⟩ : Shape).Idx → EReal := fun i =>
  directPt (fun n => x (ix1 (samp (i 2) n))) (fun k n => wc (ix2 k n)) (fun k n => ws (ix2 k n))
    (fun k => kr (ix2 (i 1) k)) (fun k => ki (ix2 (i 1) k))

end Cert.Cqt

end
-- ==== Proof.KernelBlock.lean ====
/-
  What the kernel body leaves in its output block, entry by entry.

  The body multiplies each of the four 512-wide sample blocks by the matching 512 rows of the transposed cosine and
  sine tables and adds the four products to a zero accumulator (the Fourier coefficients of the block's 512 frames),
  then multiplies those by the transposed `kr` / `ki` and takes `√(re² + im²)`. Read at one entry (frame `p` of the
  block, bin `q`) that is `Cert.Cqt.blockedPt` of row `p` of the four sample blocks, the two tables and column `q` of
  the two small matrices: a matrix product into a zero accumulator is the plain sum over the contracted axis, the
  changes of float format are the identity, and the shape casts are between equal shapes.
-/
import proofs.«155860_j64733747085470_1_alg».proof.Proof.Gen.KernelIdeal.Frame
import proofs.«155860_j64733747085470_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Blocked

open Cert.KernelIdeal Cert.KernelIdeal.Gen Idealize.ShloMosaic Idealize.ShloMosaic.ValueIdx

/-! ## The two matrix products at an entry -/

theorem lhs_big_0 (i : S512x1025.Idx) (q : dot_S512x512_S512x1025_S512x1025_1_0_0_1_n_n.contr.Idx) :
    (dot_S512x512_S512x1025_S512x1025_1_0_0_1_n_n.lhsIdx i q 0).val = (i 0).val := by
  unfold DotDims.lhsIdx
  rw [dif_neg (show ¬(0 : Fin S512x512.rank) ∈ dot_S512x512_S512x1025_S512x1025_1_0_0_1_n_n.lhsBatch by decide), dif_pos (show (0 : Fin S512x512.rank) ∈ dot_S512x512_S512x1025_S512x1025_1_0_0_1_n_n.lhsNonContracting by decide)]
  rfl
theorem lhs_big_1 (i : S512x1025.Idx) (q : dot_S512x512_S512x1025_S512x1025_1_0_0_1_n_n.contr.Idx) :
    (dot_S512x512_S512x1025_S512x1025_1_0_0_1_n_n.lhsIdx i q 1).val = (q ⟨0, by decide⟩).val :=
  dot_S512x512_S512x1025_S512x1025_1_0_0_1_n_n.lhsIdx_val_of_single rfl i q
theorem rhs_big_0 (i : S512x1025.Idx) (q : dot_S512x512_S512x1025_S512x1025_1_0_0_1_n_n.contr.Idx) :
    (dot_S512x512_S512x1025_S512x1025_1_0_0_1_n_n.rhsIdx i q 0).val = (q ⟨0, by decide⟩).val :=
  dot_S512x512_S512x1025_S512x1025_1_0_0_1_n_n.rhsIdx_val_of_single rfl i q
theorem rhs_big_1 (i : S512x1025.Idx) (q : dot_S512x512_S512x1025_S512x1025_1_0_0_1_n_n.contr.Idx) :
    (dot_S512x512_S512x1025_S512x1025_1_0_0_1_n_n.rhsIdx i q 1).val = (i 1).val := by
  unfold DotDims.rhsIdx
  rw [dif_neg (show ¬(1 : Fin S512x1025.rank) ∈ dot_S512x512_S512x1025_S512x1025_1_0_0_1_n_n.rhsBatch by decide), dif_pos (show (1 : Fin S512x1025.rank) ∈ dot_S512x512_S512x1025_S512x1025_1_0_0_1_n_n.rhsNonContracting by decide)]
  rfl

/-- A 512-sample block times 512 table rows, into a zero accumulator, at (frame `p`, coefficient `k`): the sum over the 512 samples. -/
theorem mm_big_apply (l : FVec Ideal S512x512 .bf16) (r : FVec Ideal S512x1025 .bf16) (p : Fin 512) (k : Fin 1025) :
    matmul dot_S512x512_S512x1025_S512x1025_1_0_0_1_n_n none l r (constant (F := Ideal) S512x1025 .f32 0x00000000#32) (ix2 p k)
      = ∑ j : Fin 512, l (ix2 p j) * r (ix2 j k) := by
  simp only [matmul]
  rw [Ideal.matmul_constant_zero_apply, ← Equiv.sum_comp (contrEquiv1 dot_S512x512_S512x1025_S512x1025_1_0_0_1_n_n 512 rfl rfl).symm]
  refine Finset.sum_congr rfl fun j _ => ?_
  have hk := contrEquiv1_symm_val dot_S512x512_S512x1025_S512x1025_1_0_0_1_n_n 512 rfl rfl j
  have el : dot_S512x512_S512x1025_S512x1025_1_0_0_1_n_n.lhsIdx (ix2 p k) ((contrEquiv1 dot_S512x512_S512x1025_S512x1025_1_0_0_1_n_n 512 rfl rfl).symm j) = ix2 p j := funext fun a => Fin.ext (by
    match a with
    | ⟨0, _⟩ => exact lhs_big_0 _ _
    | ⟨1, _⟩ => exact (lhs_big_1 _ _).trans hk)
  have er : dot_S512x512_S512x1025_S512x1025_1_0_0_1_n_n.rhsIdx (ix2 p k) ((contrEquiv1 dot_S512x512_S512x1025_S512x1025_1_0_0_1_n_n 512 rfl rfl).symm j) = ix2 j k := funext fun a => Fin.ext (by
    match a with
    | ⟨0, _⟩ => exact (rhs_big_0 _ _).trans hk
    | ⟨1, _⟩ => exact rhs_big_1 _ _)
  rw [el, er]

theorem lhs_small_0 (i : S512x84.Idx) (q : dot_S512x1025_S1025x84_S512x84_1_0_0_1_n_n.contr.Idx) :
    (dot_S512x1025_S1025x84_S512x84_1_0_0_1_n_n.lhsIdx i q 0).val = (i 0).val := by
  unfold DotDims.lhsIdx
  rw [dif_neg (show ¬(0 : Fin S512x1025.rank) ∈ dot_S512x1025_S1025x84_S512x84_1_0_0_1_n_n.lhsBatch by decide), dif_pos (show (0 : Fin S512x1025.rank) ∈ dot_S512x1025_S1025x84_S512x84_1_0_0_1_n_n.lhsNonContracting by decide)]
  rfl
theorem lhs_small_1 (i : S512x84.Idx) (q : dot_S512x1025_S1025x84_S512x84_1_0_0_1_n_n.contr.Idx) :
    (dot_S512x1025_S1025x84_S512x84_1_0_0_1_n_n.lhsIdx i q 1).val = (q ⟨0, by decide⟩).val :=
  dot_S512x1025_S1025x84_S512x84_1_0_0_1_n_n.lhsIdx_val_of_single rfl i q
theorem rhs_small_0 (i : S512x84.Idx) (q : dot_S512x1025_S1025x84_S512x84_1_0_0_1_n_n.contr.Idx) :
    (dot_S512x1025_S1025x84_S512x84_1_0_0_1_n_n.rhsIdx i q 0).val = (q ⟨0, by decide⟩).val :=
  dot_S512x1025_S1025x84_S512x84_1_0_0_1_n_n.rhsIdx_val_of_single rfl i q
theorem rhs_small_1 (i : S512x84.Idx) (q : dot_S512x1025_S1025x84_S512x84_1_0_0_1_n_n.contr.Idx) :
    (dot_S512x1025_S1025x84_S512x84_1_0_0_1_n_n.rhsIdx i q 1).val = (i 1).val := by
  unfold DotDims.rhsIdx
  rw [dif_neg (show ¬(1 : Fin S1025x84.rank) ∈ dot_S512x1025_S1025x84_S512x84_1_0_0_1_n_n.rhsBatch by decide), dif_pos (show (1 : Fin S1025x84.rank) ∈ dot_S512x1025_S1025x84_S512x84_1_0_0_1_n_n.rhsNonContracting by decide)]
  rfl

/-- The coefficients times a 1025 × 84 matrix, into a zero accumulator, at (frame `p`, bin `q`): the sum over the 1025 coefficients. -/
theorem mm_small_apply (l : FVec Ideal S512x1025 .bf16) (r : FVec Ideal S1025x84 .bf16) (p : Fin 512) (q : Fin 84) :
    matmul dot_S512x1025_S1025x84_S512x84_1_0_0_1_n_n none l r (constant (F := Ideal) S512x84 .f32 0x00000000#32) (ix2 p q)
      = ∑ k : Fin 1025, l (ix2 p k) * r (ix2 k q) := by
  simp only [matmul]
  rw [Ideal.matmul_constant_zero_apply, ← Equiv.sum_comp (contrEquiv1 dot_S512x1025_S1025x84_S512x84_1_0_0_1_n_n 1025 rfl rfl).symm]
  refine Finset.sum_congr rfl fun k _ => ?_
  have hk := contrEquiv1_symm_val dot_S512x1025_S1025x84_S512x84_1_0_0_1_n_n 1025 rfl rfl k
  have el : dot_S512x1025_S1025x84_S512x84_1_0_0_1_n_n.lhsIdx (ix2 p q) ((contrEquiv1 dot_S512x1025_S1025x84_S512x84_1_0_0_1_n_n 1025 rfl rfl).symm k) = ix2 p k := funext fun a => Fin.ext (by
    match a with
    | ⟨0, _⟩ => exact lhs_small_0 _ _
    | ⟨1, _⟩ => exact (lhs_small_1 _ _).trans hk)
  have er : dot_S512x1025_S1025x84_S512x84_1_0_0_1_n_n.rhsIdx (ix2 p q) ((contrEquiv1 dot_S512x1025_S1025x84_S512x84_1_0_0_1_n_n 1025 rfl rfl).symm k) = ix2 k q := funext fun a => Fin.ext (by
    match a with
    | ⟨0, _⟩ => exact (rhs_small_0 _ _).trans hk
    | ⟨1, _⟩ => exact rhs_small_1 _ _)
  rw [el, er]

/-! ## The payloads at an entry -/

theorem hz : (![0, 0] : Fin 2 → Nat) = fun _ => 0 := funext fun a => by fin_cases a <;> rfl

/-- The square root of a vector at an entry. -/
theorem sqrt_apply {s : Shape} (a : FVec Ideal s .f32) (i : s.Idx) : sqrt a i = Ideal.sqrt (a i) := rfl

/-- The first two partial sums of a coefficient: a zero accumulator plus blocks 0 and 1. -/
theorem pay_first_two (w0 w1 : Vec Ideal S512x1025 .bf16) (a0 a1 : Vec Ideal S512x512 .bf16) (p : Fin 512) (k : Fin 1025) :
    k0_pay1 (F := Ideal) w0 a0 w1 a1 (ix2 p k)
      = (0 + ∑ j : Fin 512, a0 (ix2 p j) * w0 (ix2 j k)) + ∑ j : Fin 512, a1 (ix2 p j) * w1 (ix2 j k) := by
  unfold k0_pay1
  simp only [shapeCast_self]
  rw [addf_apply, addf_apply, mm_big_apply, mm_big_apply, broadcast_apply]
  show Ideal.ofBits .f32 0x00000000#32 + _ + _ = _
  rw [Ideal.ofBits_zero_f32]

/-- The same for the sine table's payload. -/
theorem pay_first_two' (w0 w1 : Vec Ideal S512x1025 .bf16) (a0 a1 : Vec Ideal S512x512 .bf16) (p : Fin 512) (k : Fin 1025) :
    k0_pay2 (F := Ideal) w0 a0 w1 a1 (ix2 p k)
      = (0 + ∑ j : Fin 512, a0 (ix2 p j) * w0 (ix2 j k)) + ∑ j : Fin 512, a1 (ix2 p j) * w1 (ix2 j k) := by
  unfold k0_pay2
  simp only [shapeCast_self]
  rw [addf_apply, addf_apply, mm_big_apply, mm_big_apply, broadcast_apply]
  show Ideal.ofBits .f32 0x00000000#32 + _ + _ = _
  rw [Ideal.ofBits_zero_f32]

/-- Rows `off … off + 511` of a transposed table, loaded as a block: its entry (j, k) sits at the table's (off + j, k). -/
theorem idx_rows0 (j : Fin 512) (k : Fin 1025) : r0_0.idx (ix2 j k) = ix2 ⟨j.val, by omega⟩ k :=
  funext fun a => Fin.ext (by
    match a with
    | ⟨0, _⟩ => show 0 + 1 * j.val = j.val; omega
    | ⟨1, _⟩ => show 0 + 1 * k.val = k.val; omega)
theorem idx_rows512 (j : Fin 512) (k : Fin 1025) : r0_2.idx (ix2 j k) = ix2 ⟨512 + j.val, by omega⟩ k :=
  funext fun a => Fin.ext (by
    match a with
    | ⟨0, _⟩ => show 512 + 1 * j.val = 512 + j.val; omega
    | ⟨1, _⟩ => show 0 + 1 * k.val = k.val; omega)
theorem idx_rows1024 (j : Fin 512) (k : Fin 1025) : r0_3.idx (ix2 j k) = ix2 ⟨1024 + j.val, by omega⟩ k :=
  funext fun a => Fin.ext (by
    match a with
    | ⟨0, _⟩ => show 1024 + 1 * j.val = 1024 + j.val; omega
    | ⟨1, _⟩ => show 0 + 1 * k.val = k.val; omega)
theorem idx_rows1536 (j : Fin 512) (k : Fin 1025) : r0_4.idx (ix2 j k) = ix2 ⟨1536 + j.val, by omega⟩ k :=
  funext fun a => Fin.ext (by
    match a with
    | ⟨0, _⟩ => show 1536 + 1 * j.val = 1536 + j.val; omega
    | ⟨1, _⟩ => show 0 + 1 * k.val = k.val; omega)

/-- The last payload at (frame `p`, bin `q`): blocks 2 and 3 added to the two partial sums `s`, `s'`, the four products
    with `kr` / `ki`, and the magnitude. -/
theorem pay_last (s s' : FVec Ideal S512x1025 .f32) (w2 w2' : FVec Ideal S512x1025 .bf16) (a2 a2' : Vec Ideal S512x512 .bf16)
    (w3 w3' : Vec Ideal S512x1025 .bf16) (a3 a3' : Vec Ideal S512x512 .bf16) (kr ki : Vec Ideal S1025x84 .bf16) (p : Fin 512) (q : Fin 84) :
    k0_pay5 (F := Ideal) s s' w2 w2' a2 a2' w3 w3' a3 a3' kr ki (ix2 p q)
      = Ideal.sqrt
        (((∑ k : Fin 1025, ((s (ix2 p k) + ∑ j : Fin 512, a2 (ix2 p j) * w2 (ix2 j k)) + ∑ j : Fin 512, a3 (ix2 p j) * w3 (ix2 j k)) * kr (ix2 k q))
            - (∑ k : Fin 1025, ((s' (ix2 p k) + ∑ j : Fin 512, a2' (ix2 p j) * w2' (ix2 j k)) + ∑ j : Fin 512, a3' (ix2 p j) * w3' (ix2 j k)) * ki (ix2 k q)))
          * ((∑ k : Fin 1025, ((s (ix2 p k) + ∑ j : Fin 512, a2 (ix2 p j) * w2 (ix2 j k)) + ∑ j : Fin 512, a3 (ix2 p j) * w3 (ix2 j k)) * kr (ix2 k q))
            - (∑ k : Fin 1025, ((s' (ix2 p k) + ∑ j : Fin 512, a2' (ix2 p j) * w2' (ix2 j k)) + ∑ j : Fin 512, a3' (ix2 p j) * w3' (ix2 j k)) * ki (ix2 k q)))
        + ((∑ k : Fin 1025, ((s (ix2 p k) + ∑ j : Fin 512, a2 (ix2 p j) * w2 (ix2 j k)) + ∑ j : Fin 512, a3 (ix2 p j) * w3 (ix2 j k)) * ki (ix2 k q))
            + (∑ k : Fin 1025, ((s' (ix2 p k) + ∑ j : Fin 512, a2' (ix2 p j) * w2' (ix2 j k)) + ∑ j : Fin 512, a3' (ix2 p j) * w3' (ix2 j k)) * kr (ix2 k q)))
          * ((∑ k : Fin 1025, ((s (ix2 p k) + ∑ j : Fin 512, a2 (ix2 p j) * w2 (ix2 j k)) + ∑ j : Fin 512, a3 (ix2 p j) * w3 (ix2 j k)) * ki (ix2 k q))
            + (∑ k : Fin 1025, ((s' (ix2 p k) + ∑ j : Fin 512, a2' (ix2 p j) * w2' (ix2 j k)) + ∑ j : Fin 512, a3' (ix2 p j) * w3' (ix2 j k)) * kr (ix2 k q)))) := by
  unfold k0_pay5
  simp only [shapeCast_self]
  simp only [sqrt_apply, addf_apply, mulf_apply, subf_apply, mm_small_apply, truncf_apply, mm_big_apply]

/-- THE BLOCK AT AN ENTRY: frame `p` of the block, bin `q`. -/
theorem out_block (x0 x1 x2 x3 : Vec Ideal S512x512 .bf16) (x4 x5 : Vec Ideal S2048x1025 .bf16) (x6 x7 : Vec Ideal S1025x84 .bf16)
    (p : Fin 512) (q : Fin 84) :
    out0_8 (F := Ideal) x0 x1 x2 x3 x4 x5 x6 x7 (ix2 p q)
      = Cert.Cqt.blockedPt (fun j => x0 (ix2 p j)) (fun j => x1 (ix2 p j)) (fun j => x2 (ix2 p j)) (fun j => x3 (ix2 p j))
          (fun n k => x4 (ix2 n k)) (fun n k => x5 (ix2 n k)) (fun k => x6 (ix2 k q)) (fun k => x7 (ix2 k q)) := by
  unfold out0_8
  rw [View.canon_unit_zero hz]
  simp only [View.ld_unit_zero (S := S512x512) hz, View.ld_unit_zero (S := S1025x84) hz]
  rw [pay_last]
  simp only [pay_first_two, pay_first_two', k0_pay3, k0_pay4, shapeCast_self, View.ld, idx_rows0, idx_rows512, idx_rows1024, idx_rows1536]
  rfl

end Cert.KernelIdeal.Blocked

end
-- ==== Proof.KernelArray.lean ====
/-
  The kernel program's result, as one function of its five arguments.

  Before the call the signal is laid out as 16384 rows of 512 samples, eight zero rows are appended, and four copies
  are cut, shifted by 0, 1, 2 and 3 rows: row `f` of copy `s` holds samples `512 (f + s) … 512 (f + s) + 511`, the
  `s`-th quarter of frame `f`. The tables and `kr` / `ki` are transposed. Each of the 32 grid points takes 512 rows of
  the four copies and all of the tables and matrices and writes 512 rows of a 16384 × 84 array; the blocks tile that
  array, so it ends holding, at (row `f`, bin `q`), the blocked magnitude of row `f` of the four copies. After the call
  rows 16381 … 16383 are dropped (no frame starts there: they are the only rows that read the appended zeros), the
  array is transposed and given a leading unit axis. For a frame `f < 16381` the rows `f … f + 3` lie inside the signal,
  so the blocked magnitude is taken over the frame's own quarters, and by the law of the specification it is the
  direct magnitude: the result is `Cert.Cqt.mag` of the arguments.
-/
import proofs.«155860_j64733747085470_1_alg».proof.Proof.Gen.KernelIdeal.Frame
import proofs.«155860_j64733747085470_1_alg».proof.Proof.KernelBlock
import Idealize.ShloMosaic.Lib.Pipeline.Value
import Idealize.ShloMosaic.Lib.ValueIdx
import Idealize.ShloMosaic.Lib.StableHlo.Run
import Idealize.ShloMosaic.Lib.KernelVsHost

set_option maxRecDepth 16384

noncomputable section

open scoped BigOperators

namespace Cert.KernelIdeal.Blocked

open Cert.KernelIdeal Cert.KernelIdeal.Gen Idealize.ShloMosaic Idealize.ShloMosaic.ValueIdx Idealize.ShloMosaic.TcCoe
open Idealize.SL.Sem Idealize.ShloMosaic.StableHlo
open Idealize.ShloMosaic.Pipeline (Dat Cfg Window)

/-! ## The host operations before the call, read at an entry -/

/-- The signal laid out as rows of 512, eight zero rows appended, then rows `off … off + 16383` kept: row `r` of the
    result, when `off + r` is still a row of the signal, holds samples `512 (off + r) …`. -/
theorem shifted_rows_apply (x : FVec Ideal S8388608 .f32) (pv : FVec Ideal S_ .f32) (off : Nat)
    (h : S16392x512.Slices ![off, 0] S16384x512) (r : Fin 16384) (j : Fin 512) (hr : off + r.val < 16384) :
    extractStridedSlice S16384x512 ![off, 0]
      (truncf .bf16 (pad S16392x512 ![0, 0] ![8, 0] ![0, 0] (shapeCast S16384x512 x shapeCasts_S8388608_S16384x512) pv
        pads_S16384x512_S16392x512_080_000 h_S_) bitsLt_bf16_f32) h (ix2 r j)
      = x (ix1 (⟨512 * (off + r.val) + j.val, by omega⟩ : Fin 8388608)) := by
  rw [extractStridedSlice_apply ![off, 0] _ h (ix2 r j) (ix2 (⟨off + r.val, by omega⟩ : Fin 16392) j) (fun a => by
    match a with
    | ⟨0, _⟩ => rfl
    | ⟨1, _⟩ => show j.val = 0 + j.val; omega)]
  rw [truncf_apply]
  rw [pad_apply_of_inside ![0, 0] ![8, 0] ![0, 0] _ pv pads_S16384x512_S16392x512_080_000 h_S_
    (ix2 (⟨off + r.val, by omega⟩ : Fin 16392) j) (ix2 (⟨off + r.val, hr⟩ : Fin 16384) j) (fun a => by
    match a with
    | ⟨0, _⟩ => show off + r.val = 0 + (off + r.val) * (0 + 1); omega
    | ⟨1, _⟩ => show j.val = 0 + j.val * (0 + 1); omega)]
  exact shapeCast_apply x shapeCasts_S8388608_S16384x512 (ix2 (⟨off + r.val, hr⟩ : Fin 16384) j)
    (ix1 (⟨512 * (off + r.val) + j.val, by omega⟩ : Fin 8388608)) (by
      rw [Shape.rowMajor_val_one, Shape.rowMajor_val_two]
      show 512 * (off + r.val) + j.val = (off + r.val) * 512 + j.val
      omega)

/-- A cosine / sine table transposed: entry (n, k) is the table's (k, n). -/
theorem table_T_apply (w : FVec Ideal S1025x2048 .f32) (n : Fin 2048) (k : Fin 1025) :
    truncf .bf16 (transpose S2048x1025 [1, 0] w transposes_S1025x2048_S2048x1025_1_0) bitsLt_bf16_f32 (ix2 n k) = w (ix2 k n) := by
  rw [truncf_apply]
  exact transpose_apply [1, 0] w transposes_S1025x2048_S2048x1025_1_0 (ix2 n k) (ix2 k n) (fun b => by
    match b with
    | ⟨0, _⟩ => rfl
    | ⟨1, _⟩ => rfl)

/-- `kr` / `ki` transposed: entry (k, b) is the matrix's (b, k). -/
theorem mat_T_apply (w : FVec Ideal S84x1025 .f32) (k : Fin 1025) (b : Fin 84) :
    truncf .bf16 (transpose S1025x84 [1, 0] w transposes_S84x1025_S1025x84_1_0) bitsLt_bf16_f32 (ix2 k b) = w (ix2 b k) := by
  rw [truncf_apply]
  exact transpose_apply [1, 0] w transposes_S84x1025_S1025x84_1_0 (ix2 k b) (ix2 b k) (fun a => by
    match a with
    | ⟨0, _⟩ => rfl
    | ⟨1, _⟩ => rfl)

variable (m : (ℓ : Loc nD τ sig) → Buf (Elt Ideal) ℓ) (ρ : Dev nD → PrngReg)

/-- The five inputs on core `c`. -/
abbrev inX (c : Dev nD) : FVec Ideal S8388608 .f32 := m ((c : Thread nD τ).loc main_arg0)
abbrev inC (c : Dev nD) : FVec Ideal S1025x2048 .f32 := m ((c : Thread nD τ).loc main_arg1)
abbrev inS (c : Dev nD) : FVec Ideal S1025x2048 .f32 := m ((c : Thread nD τ).loc main_arg2)
abbrev inR (c : Dev nD) : FVec Ideal S84x1025 .f32 := m ((c : Thread nD τ).loc main_arg3)
abbrev inI (c : Dev nD) : FVec Ideal S84x1025 .f32 := m ((c : Thread nD τ).loc main_arg4)

/-- The eight arrays the call's windows stage, as the call finds them. -/
abbrev rows0 (c : Dev nD) : Vec Ideal S16384x512 .bf16 := V m c main_v3
abbrev rows1 (c : Dev nD) : Vec Ideal S16384x512 .bf16 := V m c main_v4
abbrev rows2 (c : Dev nD) : Vec Ideal S16384x512 .bf16 := V m c main_v5
abbrev rows3 (c : Dev nD) : Vec Ideal S16384x512 .bf16 := V m c main_v6
abbrev tabC (c : Dev nD) : Vec Ideal S2048x1025 .bf16 := V m c main_v8
abbrev tabS (c : Dev nD) : Vec Ideal S2048x1025 .bf16 := V m c main_v10
abbrev matR (c : Dev nD) : Vec Ideal S1025x84 .bf16 := V m c main_v12
abbrev matI (c : Dev nD) : Vec Ideal S1025x84 .bf16 := V m c main_v14

theorem rows0_apply (c : Dev nD) (r : Fin 16384) (j : Fin 512) (hr : 0 + r.val < 16384) :
    rows0 m c (ix2 r j) = inX m c (ix1 (⟨512 * (0 + r.val) + j.val, by omega⟩ : Fin 8388608)) := by
  have e : (V m c main_v3 : S16384x512.Idx → EReal) = extractStridedSlice S16384x512 ![0, 0]
      (truncf .bf16 (pad S16392x512 ![0, 0] ![8, 0] ![0, 0] (shapeCast S16384x512 (inX m c) shapeCasts_S8388608_S16384x512)
        (sitofp (F := Ideal) .f32 (constantI S_ 32 0#32)) pads_S16384x512_S16392x512_080_000 h_S_) bitsLt_bf16_f32)
      slices_S16392x512_S16384x512_0_0 := by
    dsimp only [V, V0]
    simp only [hostOps0, hostOps0_1, hostOps0_2, List.flatten_cons, List.flatten_nil, List.append_nil, List.cons_append, List.nil_append]
    after_results
    try rfl
  show (V m c main_v3 : S16384x512.Idx → EReal) (ix2 r j) = _
  rw [e]
  exact shifted_rows_apply _ _ 0 _ r j hr

theorem tabC_apply (c : Dev nD) (n : Fin 2048) (k : Fin 1025) : tabC m c (ix2 n k) = inC m c (ix2 k n) := by
  have e : (V m c main_v8 : S2048x1025.Idx → EReal) = truncf .bf16 (transpose S2048x1025 [1, 0] (inC m c) transposes_S1025x2048_S2048x1025_1_0) bitsLt_bf16_f32 := by
    dsimp only [V, V0]
    simp only [hostOps0, hostOps0_1, hostOps0_2, List.flatten_cons, List.flatten_nil, List.append_nil, List.cons_append, List.nil_append]
    after_results
    try rfl
  show (V m c main_v8 : S2048x1025.Idx → EReal) (ix2 n k) = _
  rw [e]
  exact table_T_apply _ n k

theorem rows1_apply (c : Dev nD) (r : Fin 16384) (j : Fin 512) (hr : 1 + r.val < 16384) :
    rows1 m c (ix2 r j) = inX m c (ix1 (⟨512 * (1 + r.val) + j.val, by omega⟩ : Fin 8388608)) := by
  have e : (V m c main_v4 : S16384x512.Idx → EReal) = extractStridedSlice S16384x512 ![1, 0]
      (truncf .bf16 (pad S16392x512 ![0, 0] ![8, 0] ![0, 0] (shapeCast S16384x512 (inX m c) shapeCasts_S8388608_S16384x512)
        (sitofp (F := Ideal) .f32 (constantI S_ 32 0#32)) pads_S16384x512_S16392x512_080_000 h_S_) bitsLt_bf16_f32)
      slices_S16392x512_S16384x512_1_0 := by
    dsimp only [V, V0]
    simp only [hostOps0, hostOps0_1, hostOps0_2, List.flatten_cons, List.flatten_nil, List.append_nil, List.cons_append, List.nil_append]
    after_results
    try rfl
  show (V m c main_v4 : S16384x512.Idx → EReal) (ix2 r j) = _
  rw [e]
  exact shifted_rows_apply _ _ 1 _ r j hr

theorem rows2_apply (c : Dev nD) (r : Fin 16384) (j : Fin 512) (hr : 2 + r.val < 16384) :
    rows2 m c (ix2 r j) = inX m c (ix1 (⟨512 * (2 + r.val) + j.val, by omega⟩ : Fin 8388608)) := by
  have e : (V m c main_v5 : S16384x512.Idx → EReal) = extractStridedSlice S16384x512 ![2, 0]
      (truncf .bf16 (pad S16392x512 ![0, 0] ![8, 0] ![0, 0] (shapeCast S16384x512 (inX m c) shapeCasts_S8388608_S16384x512)
        (sitofp (F := Ideal) .f32 (constantI S_ 32 0#32)) pads_S16384x512_S16392x512_080_000 h_S_) bitsLt_bf16_f32)
      slices_S16392x512_S16384x512_2_0 := by
    dsimp only [V, V0]
    simp only [hostOps0, hostOps0_1, hostOps0_2, List.flatten_cons, List.flatten_nil, List.append_nil, List.cons_append, List.nil_append]
    after_results
    try rfl
  show (V m c main_v5 : S16384x512.Idx → EReal) (ix2 r j) = _
  rw [e]
  exact shifted_rows_apply _ _ 2 _ r j hr

theorem rows3_apply (c : Dev nD) (r : Fin 16384) (j : Fin 512) (hr : 3 + r.val < 16384) :
    rows3 m c (ix2 r j) = inX m c (ix1 (⟨512 * (3 + r.val) + j.val, by omega⟩ : Fin 8388608)) := by
  have e : (V m c main_v6 : S16384x512.Idx → EReal) = extractStridedSlice S16384x512 ![3, 0]
      (truncf .bf16 (pad S16392x512 ![0, 0] ![8, 0] ![0, 0] (shapeCast S16384x512 (inX m c) shapeCasts_S8388608_S16384x512)
        (sitofp (F := Ideal) .f32 (constantI S_ 32 0#32)) pads_S16384x512_S16392x512_080_000 h_S_) bitsLt_bf16_f32)
      slices_S16392x512_S16384x512_3_0 := by
    dsimp only [V, V0]
    simp only [hostOps0, hostOps0_1, hostOps0_2, List.flatten_cons, List.flatten_nil, List.append_nil, List.cons_append, List.nil_append]
    after_results
    try rfl
  show (V m c main_v6 : S16384x512.Idx → EReal) (ix2 r j) = _
  rw [e]
  exact shifted_rows_apply _ _ 3 _ r j hr

theorem tabS_apply (c : Dev nD) (n : Fin 2048) (k : Fin 1025) : tabS m c (ix2 n k) = inS m c (ix2 k n) := by
  have e : (V m c main_v10 : S2048x1025.Idx → EReal) = truncf .bf16 (transpose S2048x1025 [1, 0] (inS m c) transposes_S1025x2048_S2048x1025_1_0) bitsLt_bf16_f32 := by
    dsimp only [V, V0]
    simp only [hostOps0, hostOps0_1, hostOps0_2, List.flatten_cons, List.flatten_nil, List.append_nil, List.cons_append, List.nil_append]
    after_results
    try rfl
  show (V m c main_v10 : S2048x1025.Idx → EReal) (ix2 n k) = _
  rw [e]
  exact table_T_apply _ n k

theorem matR_apply (c : Dev nD) (k : Fin 1025) (b : Fin 84) : matR m c (ix2 k b) = inR m c (ix2 b k) := by
  have e : (V m c main_v12 : S1025x84.Idx → EReal) = truncf .bf16 (transpose S1025x84 [1, 0] (inR m c) transposes_S84x1025_S1025x84_1_0) bitsLt_bf16_f32 := by
    dsimp only [V, V0]
    simp only [hostOps0, hostOps0_1, hostOps0_2, List.flatten_cons, List.flatten_nil, List.append_nil, List.cons_append, List.nil_append]
    after_results
    try rfl
  show (V m c main_v12 : S1025x84.Idx → EReal) (ix2 k b) = _
  rw [e]
  exact mat_T_apply _ k b

theorem matI_apply (c : Dev nD) (k : Fin 1025) (b : Fin 84) : matI m c (ix2 k b) = inI m c (ix2 b k) := by
  have e : (V m c main_v14 : S1025x84.Idx → EReal) = truncf .bf16 (transpose S1025x84 [1, 0] (inI m c) transposes_S84x1025_S1025x84_1_0) bitsLt_bf16_f32 := by
    dsimp only [V, V0]
    simp only [hostOps0, hostOps0_1, hostOps0_2, List.flatten_cons, List.flatten_nil, List.append_nil, List.cons_append, List.nil_append]
    after_results
    try rfl
  show (V m c main_v14 : S1025x84.Idx → EReal) (ix2 k b) = _
  rw [e]
  exact mat_T_apply _ k b

/-! ## The call's result array -/

/-- Entry (r, q) of the 16384 × 84 array the call fills: the blocked magnitude of row `r` of the four row-shifted
    sample arrays under the transposed tables, at column `q` of the transposed `kr` / `ki`. -/
def arrayPt (A0 A1 A2 A3 : Vec Ideal S16384x512 .bf16) (WC WS : Vec Ideal S2048x1025 .bf16) (KR KI : Vec Ideal S1025x84 .bf16)
    (r : Fin 16384) (q : Fin 84) : EReal :=
  Cert.Cqt.blockedPt (fun j => A0 (ix2 r j)) (fun j => A1 (ix2 r j)) (fun j => A2 (ix2 r j)) (fun j => A3 (ix2 r j))
    (fun n k => WC (ix2 n k)) (fun n k => WS (ix2 n k)) (fun k => KR (ix2 k q)) (fun k => KI (ix2 k q))

def arrayOf (A0 A1 A2 A3 : Vec Ideal S16384x512 .bf16) (WC WS : Vec Ideal S2048x1025 .bf16) (KR KI : Vec Ideal S1025x84 .bf16) :
    Vec Ideal S16384x84 .f32 := fun i => arrayPt A0 A1 A2 A3 WC WS KR KI (i 0) (i 1)

/-- One block's entry is the array's: the block's sample rows are rows of the arrays, its tables and matrices the whole arrays. -/
theorem block_entry (A0 A1 A2 A3 : Vec Ideal S16384x512 .bf16) (WC WS : Vec Ideal S2048x1025 .bf16) (KR KI : Vec Ideal S1025x84 .bf16)
    (x0 x1 x2 x3 : Vec Ideal S512x512 .bf16) (x4 x5 : Vec Ideal S2048x1025 .bf16) (x6 x7 : Vec Ideal S1025x84 .bf16)
    (p : Fin 512) (q : Fin 84) (r : Fin 16384)
    (h0 : ∀ j : Fin 512, x0 (ix2 p j) = A0 (ix2 r j)) (h1 : ∀ j : Fin 512, x1 (ix2 p j) = A1 (ix2 r j))
    (h2 : ∀ j : Fin 512, x2 (ix2 p j) = A2 (ix2 r j)) (h3 : ∀ j : Fin 512, x3 (ix2 p j) = A3 (ix2 r j))
    (h4 : x4 = WC) (h5 : x5 = WS) (h6 : x6 = KR) (h7 : x7 = KI) :
    out0_8 (F := Ideal) x0 x1 x2 x3 x4 x5 x6 x7 (ix2 p q) = arrayOf A0 A1 A2 A3 WC WS KR KI (ix2 r q) := by
  subst h4 h5 h6 h7
  rw [out_block]
  show _ = arrayPt A0 A1 A2 A3 x4 x5 x6 x7 r q
  unfold arrayPt
  simp only [h0, h1, h2, h3]

/-- The printed index maps, decided over the 32 grid points: the four sample windows and the output move one block of
    512 rows per point, the tables and matrices stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The array the call fills, of the arrays it finds. -/
abbrev finalArr (c : Dev nD) : Vec Ideal S16384x84 .f32 :=
  arrayOf (rows0 m c) (rows1 m c) (rows2 m c) (rows3 m c) (tabC m c) (tabS m c) (matR m c) (matI m c)

/-- WHAT POINT `t` WRITES BACK is block `t` of that array. -/
theorem flushed_eq (c : Dev nD) (t : Fin cfg0.N) :
    (dats m 0 c).flushed 8 t = ((cfg0.win 8).blk t).view.read (Elt Ideal) (finalArr m c) := by
  show (cfg0.win 8).cut (grid0.coords t) ((dats m 0 c).after 8 t) = _
  rw [after0_8]
  obtain ⟨e00, e01, e10, e11, e20, e21, e30, e31, e40, e41, e50, e51, e60, e61, e70, e71, e80, e81⟩ := idx_facts t
  have ht : t.val < 32 := t.isLt
  funext y
  obtain ⟨p, q, rfl⟩ : ∃ (p : Fin 512) (q : Fin 84), y = ix2 p q := ⟨y 0, y 1, eq_ix2 y⟩
  show out0_8 (iblk m c 0 t) (iblk m c 1 t) (iblk m c 2 t) (iblk m c 3 t) (iblk m c 4 t) (iblk m c 5 t) (iblk m c 6 t) (iblk m c 7 t) (ix2 p q)
    = finalArr m c (((cfg0.win 8).blk t).view.emb (ix2 p q))
  have hi : ((cfg0.win 8).blk t).view.emb (ix2 p q) = ix2 (⟨512 * t.val + p.val, by omega⟩ : Fin 16384) q := funext fun a => Fin.ext (by
    match a with
    | ⟨0, _⟩ => show win0_8.index t (0 : Fin 2) * 512 + 1 * p.val = 512 * t.val + p.val; omega
    | ⟨1, _⟩ => show win0_8.index t (1 : Fin 2) * 84 + 1 * q.val = q.val; omega)
  rw [hi]
  refine block_entry (rows0 m c) (rows1 m c) (rows2 m c) (rows3 m c) (tabC m c) (tabS m c) (matR m c) (matI m c)
    (iblk m c 0 t) (iblk m c 1 t) (iblk m c 2 t) (iblk m c 3 t) (iblk m c 4 t) (iblk m c 5 t) (iblk m c 6 t) (iblk m c 7 t)
    p q (⟨512 * t.val + p.val, by omega⟩ : Fin 16384) ?_ ?_ ?_ ?_ ?_ ?_ ?_ ?_
  · intro j
    show V m c main_v3 (((cfg0.win 0).blk t).view.emb (ix2 p j)) = V m c main_v3 (ix2 (⟨512 * t.val + p.val, by omega⟩ : Fin 16384) j)
    refine congrArg (V m c main_v3) (funext fun a => Fin.ext ?_)
    match a with
    | ⟨0, _⟩ => show win0_0.index t (0 : Fin 2) * 512 + 1 * p.val = 512 * t.val + p.val; omega
    | ⟨1, _⟩ => show win0_0.index t (1 : Fin 2) * 512 + 1 * j.val = j.val; omega
  · intro j
    show V m c main_v4 (((cfg0.win 1).blk t).view.emb (ix2 p j)) = V m c main_v4 (ix2 (⟨512 * t.val + p.val, by omega⟩ : Fin 16384) j)
    refine congrArg (V m c main_v4) (funext fun a => Fin.ext ?_)
    match a with
    | ⟨0, _⟩ => show win0_1.index t (0 : Fin 2) * 512 + 1 * p.val = 512 * t.val + p.val; omega
    | ⟨1, _⟩ => show win0_1.index t (1 : Fin 2) * 512 + 1 * j.val = j.val; omega
  · intro j
    show V m c main_v5 (((cfg0.win 2).blk t).view.emb (ix2 p j)) = V m c main_v5 (ix2 (⟨512 * t.val + p.val, by omega⟩ : Fin 16384) j)
    refine congrArg (V m c main_v5) (funext fun a => Fin.ext ?_)
    match a with
    | ⟨0, _⟩ => show win0_2.index t (0 : Fin 2) * 512 + 1 * p.val = 512 * t.val + p.val; omega
    | ⟨1, _⟩ => show win0_2.index t (1 : Fin 2) * 512 + 1 * j.val = j.val; omega
  · intro j
    show V m c main_v6 (((cfg0.win 3).blk t).view.emb (ix2 p j)) = V m c main_v6 (ix2 (⟨512 * t.val + p.val, by omega⟩ : Fin 16384) j)
    refine congrArg (V m c main_v6) (funext fun a => Fin.ext ?_)
    match a with
    | ⟨0, _⟩ => show win0_3.index t (0 : Fin 2) * 512 + 1 * p.val = 512 * t.val + p.val; omega
    | ⟨1, _⟩ => show win0_3.index t (1 : Fin 2) * 512 + 1 * j.val = j.val; omega
  · funext z
    show V m c main_v8 (((cfg0.win 4).blk t).view.emb z) = V m c main_v8 z
    refine congrArg (V m c main_v8) (funext fun a => Fin.ext ?_)
    match a with
    | ⟨0, _⟩ => show win0_4.index t (0 : Fin 2) * 2048 + 1 * (z 0).val = (z 0).val; omega
    | ⟨1, _⟩ => show win0_4.index t (1 : Fin 2) * 1025 + 1 * (z 1).val = (z 1).val; omega
  · funext z
    show V m c main_v10 (((cfg0.win 5).blk t).view.emb z) = V m c main_v10 z
    refine congrArg (V m c main_v10) (funext fun a => Fin.ext ?_)
    match a with
    | ⟨0, _⟩ => show win0_5.index t (0 : Fin 2) * 2048 + 1 * (z 0).val = (z 0).val; omega
    | ⟨1, _⟩ => show win0_5.index t (1 : Fin 2) * 1025 + 1 * (z 1).val = (z 1).val; omega
  · funext z
    show V m c main_v12 (((cfg0.win 6).blk t).view.emb z) = V m c main_v12 z
    refine congrArg (V m c main_v12) (funext fun a => Fin.ext ?_)
    match a with
    | ⟨0, _⟩ => show win0_6.index t (0 : Fin 2) * 1025 + 1 * (z 0).val = (z 0).val; omega
    | ⟨1, _⟩ => show win0_6.index t (1 : Fin 2) * 84 + 1 * (z 1).val = (z 1).val; omega
  · funext z
    show V m c main_v14 (((cfg0.win 7).blk t).view.emb z) = V m c main_v14 z
    refine congrArg (V m c main_v14) (funext fun a => Fin.ext ?_)
    match a with
    | ⟨0, _⟩ => show win0_7.index t (0 : Fin 2) * 1025 + 1 * (z 0).val = (z 0).val; omega
    | ⟨1, _⟩ => show win0_7.index t (1 : Fin 2) * 84 + 1 * (z 1).val = (z 1).val; omega

/-- An index of the array is in point `t`'s block iff each coordinate is in the block's range on its axis. -/
theorem mem_blk (t : Fin cfg0.N) (i : S16384x84.Idx) :
    i ∈ ((cfg0.win 8).blk t).view.set ↔ ∀ a : Fin 2, win0_8.index t a * S512x84.size a ≤ (i a).val ∧ (i a).val < win0_8.index t a * S512x84.size a + S512x84.size a := by
  show i ∈ ((View.whole main_v15).slice (win0_8.rect t)).set ↔ _
  rw [View.set_slice_whole, Rect.mem_set_unit]
  exact Iff.rfl

/-- Every row of the array is in the block of the point `row / 512`. -/
theorem covered (i : S16384x84.Idx) : ∃ t : Fin cfg0.N, (cfg0.win 8).flush t = true ∧ i ∈ ((cfg0.win 8).blk t).view.set := by
  have hi0 : (i 0).val < 16384 := (i 0).isLt
  have hi1 : (i 1).val < 84 := (i 1).isLt
  refine ⟨(⟨(i 0).val / 512, by show (i 0).val / 512 < 32; omega⟩ : Fin cfg0.N), flush0_8 _, ?_⟩
  rw [mem_blk]
  obtain ⟨e00, e01, e10, e11, e20, e21, e30, e31, e40, e41, e50, e51, e60, e61, e70, e71, e80, e81⟩ :=
    idx_facts (⟨(i 0).val / 512, by show (i 0).val / 512 < 32; omega⟩ : Fin cfg0.N)
  have e80' : win0_8.index (⟨(i 0).val / 512, by show (i 0).val / 512 < 32; omega⟩ : Fin cfg0.N) (0 : Fin 2) = (i 0).val / 512 := e80
  intro a
  match a with
  | ⟨0, _⟩ => show win0_8.index _ (0 : Fin 2) * 512 ≤ (i 0).val ∧ (i 0).val < win0_8.index _ (0 : Fin 2) * 512 + 512; omega
  | ⟨1, _⟩ => show win0_8.index _ (1 : Fin 2) * 84 ≤ (i 1).val ∧ (i 1).val < win0_8.index _ (1 : Fin 2) * 84 + 84; omega

/-- THE ARRAY after the call. -/
theorem final8 (c : Dev nD) : (dats m 0 c).arrAt 8 cfg0.N = finalArr m c :=
  (dats m 0 c).arrAt_eq_of_cover 8 (finalArr m c) (fun t _ => flushed_eq m c t) covered

/-! ## The operations after the call -/

/-- The result buffer after the three closing operations (drop the three rows of the last block that are no frame,
    transpose, add the leading unit axis), over the array the call filled. -/
theorem tail_eq (c : Dev nD) :
    (Pipeline.afterTail₀ cfgs (dats m) 0 (V0 m) [hostOps1] c main_v18 : S1x84x16381.Idx → EReal)
      = broadcastInDim S1x84x16381 ![1, 2] bcast_S84x16381_S1x84x16381_1_2
          (transpose S84x16381 [1, 0] (extractStridedSlice S16381x84 ![0, 0] (finalArr m c) slices_S16384x84_S16381x84_0_0)
            transposes_S16381x84_S84x16381_1_0) := by
  unfold Pipeline.afterTail₀
  show StableHlo.after hostOps1 _ (Proc.devRef .tc main_v18) = _
  after_results
  have e : Pipeline.withArrays (cfgs 0).spec c (V0 m c) (fun w => (dats m 0 c).arrAt w (cfgs 0).N) (Proc.tc.devRef main_v15) = finalArr m c :=
    (Pipeline.withArrays_arr spec0 launch0.win.arr_inj c _ _ 8).trans (final8 m c)
  rw [e]

/-- Those three operations at an entry: (0, bin `b`, frame `f`) of the result is (row `f`, column `b`) of the array. -/
theorem result_apply (A : Vec Ideal S16384x84 .f32) (z : Fin 1) (b : Fin 84) (f : Fin 16381) :
    broadcastInDim S1x84x16381 ![1, 2] bcast_S84x16381_S1x84x16381_1_2
        (transpose S84x16381 [1, 0] (extractStridedSlice S16381x84 ![0, 0] A slices_S16384x84_S16381x84_0_0)
          transposes_S16381x84_S84x16381_1_0) (ix3 z b f)
      = A (ix2 (⟨f.val, by omega⟩ : Fin 16384) b) := by
  rw [broadcastInDim_apply ![1, 2] bcast_S84x16381_S1x84x16381_1_2 _ (ix3 z b f) (ix2 b f) (fun a => by
    match a with
    | ⟨0, _⟩ => show b.val = if (84 : Nat) = 1 then 0 else b.val; rw [if_neg (by decide)]
    | ⟨1, _⟩ => show f.val = if (16381 : Nat) = 1 then 0 else f.val; rw [if_neg (by decide)])]
  rw [transpose_apply [1, 0] _ transposes_S16381x84_S84x16381_1_0 (ix2 b f) (ix2 f b) (fun a => by
    match a with
    | ⟨0, _⟩ => rfl
    | ⟨1, _⟩ => rfl)]
  exact extractStridedSlice_apply ![0, 0] A slices_S16384x84_S16381x84_0_0 (ix2 f b) (ix2 (⟨f.val, by omega⟩ : Fin 16384) b) (fun a => by
    match a with
    | ⟨0, _⟩ => show f.val = 0 + f.val; omega
    | ⟨1, _⟩ => show b.val = 0 + b.val; omega)

/-! ## The array is the magnitude -/

/-- Row `f` of the array, for a frame `f`: the four row-shifted sample arrays hold the frame's four quarters (rows
    `f … f + 3` are rows of the signal, the appended zero rows are never read), the tables and matrices are the
    arguments transposed; the blocked magnitude of those is the direct one. -/
theorem entry_is_mag (c : Dev nD) (z : Fin 1) (b : Fin 84) (f : Fin 16381) :
    finalArr m c (ix2 (⟨f.val, by omega⟩ : Fin 16384) b)
      = Cert.Cqt.mag (inX m c) (inC m c) (inS m c) (inR m c) (inI m c) (ix3 z b f) := by
  have hf : f.val < 16381 := f.isLt
  show arrayPt (rows0 m c) (rows1 m c) (rows2 m c) (rows3 m c) (tabC m c) (tabS m c) (matR m c) (matI m c) (⟨f.val, by omega⟩ : Fin 16384) b
    = Cert.Cqt.directPt (fun n => inX m c (ix1 (Cert.Cqt.samp f n))) (fun k n => inC m c (ix2 k n)) (fun k n => inS m c (ix2 k n))
        (fun k => inR m c (ix2 b k)) (fun k => inI m c (ix2 b k))
  rw [← Cert.Cqt.blocked_eq_direct (fun n => inX m c (ix1 (Cert.Cqt.samp f n))) (fun k n => inC m c (ix2 k n)) (fun k n => inS m c (ix2 k n))
        (fun k => inR m c (ix2 b k)) (fun k => inI m c (ix2 b k))]
  unfold arrayPt
  congr 1
  · funext j
    exact (rows0_apply m c _ j (by show 0 + f.val < 16384; omega)).trans
      (congrArg (fun z : Fin 8388608 => inX m c (ix1 z)) (Fin.ext (by show 512 * (0 + f.val) + j.val = 512 * f.val + j.val; omega)))
  · funext j
    exact (rows1_apply m c _ j (by show 1 + f.val < 16384; omega)).trans
      (congrArg (fun z : Fin 8388608 => inX m c (ix1 z)) (Fin.ext (by show 512 * (1 + f.val) + j.val = 512 * f.val + (512 + j.val); omega)))
  · funext j
    exact (rows2_apply m c _ j (by show 2 + f.val < 16384; omega)).trans
      (congrArg (fun z : Fin 8388608 => inX m c (ix1 z)) (Fin.ext (by show 512 * (2 + f.val) + j.val = 512 * f.val + (1024 + j.val); omega)))
  · funext j
    exact (rows3_apply m c _ j (by show 3 + f.val < 16384; omega)).trans
      (congrArg (fun z : Fin 8388608 => inX m c (ix1 z)) (Fin.ext (by show 512 * (3 + f.val) + j.val = 512 * f.val + (1536 + j.val); omega)))
  · funext n k
    exact tabC_apply m c n k
  · funext n k
    exact tabS_apply m c n k
  · funext k
    exact matR_apply m c k b
  · funext k
    exact matI_apply m c k b

/-- THE RESULT BUFFER after the run is the constant-Q magnitude of the arguments. -/
theorem result_is_mag (c : Dev nD) :
    (Pipeline.afterTail₀ cfgs (dats m) 0 (V0 m) [hostOps1] c main_v18 : S1x84x16381.Idx → EReal)
      = Cert.Cqt.mag (inX m c) (inC m c) (inS m c) (inR m c) (inI m c) := by
  rw [tail_eq]
  funext i
  obtain ⟨z, b, f, rfl⟩ : ∃ (z : Fin 1) (b : Fin 84) (f : Fin 16381), i = ix3 z b f := ⟨i 0, i 1, i 2, eq_ix3 i⟩
  rw [result_apply]
  exact entry_is_mag m c z b f

/-- The kernel's run with its result named: every weakly fair execution terminates with the result buffer at the
    magnitude of the arguments, the arguments unchanged. -/
theorem run : θ_run defs (onTc (τ := τ) (main (F := Ideal))) ⟨m, fun _ => 0, ρ⟩ (fun r => ∀ c : Dev nD,
      r.2.mem ((c.tc : Thread nD τ).loc main_v18) = Cert.Cqt.mag (inX m c) (inC m c) (inS m c) (inR m c) (inI m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v18 (Pipeline.mem_restRefs_of main_v18 (by decide) (by decide))).trans (result_is_mag m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Blocked

end
-- ==== Proof.Reference.lean ====
/-
  The reference's result is the constant-Q magnitude of its arguments.

  The reference frames the signal by a gather at the index array `512 f + n` (made of two iotas, a product and a sum in
  32-bit words, with the usual wrap of a negative index, which never fires: every index is below 2²³), takes the two
  Fourier products and the four products with `kr` / `ki`, and the magnitude. Read index by index that is
  `Cert.Cqt.mag`; the stages are the generated read-at-an-index lemmas, the gather is read here.
-/
import proofs.«155860_j64733747085470_1_alg».proof.Proof.Gen.ReferenceIdeal.Read
import proofs.«155860_j64733747085470_1_alg».proof.Proof.Spec
import Idealize.ShloMosaic.Lib.ValueIdx
import Idealize.ShloMosaic.Lib.StableHlo.Predicate

noncomputable section

open scoped BigOperators

namespace Cert.ReferenceIdeal.Direct

open Cert.ReferenceIdeal Cert.ReferenceIdeal.Gen Cert.ReferenceIdeal.Read Idealize.ShloMosaic Idealize.ShloMosaic.ValueIdx

/-- The start index the gather uses at (frame `f`, offset `n`): the word `512 f + n`. The sum is below 2²³, so it does
    not wrap, it is not negative, and the branch that adds the signal's length is not taken. -/
theorem start_word (f : Fin 16381) (n : Fin 2048) :
    val_main_v14 (F := Ideal) (takeIdx (ix2 f n)) = BitVec.ofNat 32 (512 * f.val + n.val) := by
  have hW : IntOp.addi (IntOp.muli (BitVec.ofNat 32 f.val) 512#32) (BitVec.ofNat 32 n.val) = BitVec.ofNat 32 (512 * f.val + n.val) := by
    unfold IntOp.addi IntOp.muli
    rw [show (512#32 : BitVec 32) = BitVec.ofNat 32 512 from rfl, ← BitVec.ofNat_mul, ← BitVec.ofNat_add]
    congr 1
    omega
  rw [val_main_v14_apply, val_main_v13_apply, val_main_v10_apply, val_main_v12_apply, val_main_v8_apply, val_main_v9_apply,
    val_main_c_0_apply, val_main_v11_apply, val_main_c_1_apply, val_main_v6_apply, val_main_v7_apply, val_main_v3_apply,
    val_main_v5_apply, val_main_v1_apply, val_main_v2_apply, val_main_c_apply, val_main_v4_apply, val_main_v0_apply]
  show Scalar.select (IntOp.cmpi .slt (IntOp.addi (IntOp.muli (BitVec.ofNat 32 f.val) 512#32) (BitVec.ofNat 32 n.val)) 0#32)
      (IntOp.addi (IntOp.addi (IntOp.muli (BitVec.ofNat 32 f.val) 512#32) (BitVec.ofNat 32 n.val)) 8388608#32)
      (IntOp.addi (IntOp.muli (BitVec.ofNat 32 f.val) 512#32) (BitVec.ofNat 32 n.val)) = _
  rw [hW]
  have hc : IntOp.cmpi .slt (BitVec.ofNat 32 (512 * f.val + n.val)) 0#32 = 0#1 := by
    apply eq_zero_of_ne_one
    show ¬ BitVec.ofBool ((BitVec.ofNat 32 (512 * f.val + n.val)).slt (BitVec.ofNat 32 0)) = 1#1
    rw [StableHlo.Predicate.slt_ofNat_iff _ _ (by omega) (by omega)]
    omega
  rw [hc, select_zero]

/-- The frames: entry (f, n) of the gathered array is sample `512 f + n` of the signal. -/
theorem frames_apply (x : (⟨S8388608, .f32⟩ : BufTy).Contents (Elt Ideal)) (f : Fin 16381) (n : Fin 2048) :
    val_main_v15 (F := Ideal) x (ix2 f n) = x (ix1 (Cert.Cqt.samp f n)) := by
  unfold val_main_v15
  have hd : gather_S8388608_S16381x2048x1_S16381x2048_n_0_n_n_0_2_1
      = takeDims 8388608 16381 2048 gather_S8388608_S16381x2048x1_S16381x2048_n_0_n_n_0_2_1_wf := rfl
  rw [hd, gather_take_apply (by decide)]
  refine congrArg x (congrArg (fun z : Fin 8388608 => ix1 z) (Fin.ext ?_))
  show min (val_main_v14 (F := Ideal) (takeIdx (ix2 f n))).toInt.toNat (8388608 - 1) = 512 * f.val + n.val
  rw [start_word, StableHlo.Predicate.toInt_ofNat_small _ (by omega)]
  simp only [Int.toNat_natCast]
  omega

/-- THE REFERENCE'S RESULT, as one function of its arguments. -/
theorem result_eq (x : (⟨S8388608, .f32⟩ : BufTy).Contents (Elt Ideal)) (wc ws : (⟨S1025x2048, .f32⟩ : BufTy).Contents (Elt Ideal))
    (kr ki : (⟨S84x1025, .f32⟩ : BufTy).Contents (Elt Ideal)) :
    val_main_v28 (F := Ideal) x wc ws kr ki = Cert.Cqt.mag x wc ws kr ki := by
  funext i
  obtain ⟨z, b, f, rfl⟩ : ∃ (z : Fin 1) (b : Fin 84) (f : Fin 16381), i = ix3 z b f := ⟨i 0, i 1, i 2, eq_ix3 i⟩
  have ei : idx_main_v28 (ix3 z b f) = ix2 b f := funext fun a => Fin.ext (by
    match a with
    | ⟨0, _⟩ => rfl
    | ⟨1, _⟩ => rfl)
  have el18 : ∀ k : Fin 1025, lidx_main_v18 (ix2 b f) k = ix2 b k := fun k => funext fun a => Fin.ext (by
    match a with
    | ⟨0, _⟩ => rfl
    | ⟨1, _⟩ => rfl)
  have er18 : ∀ k : Fin 1025, ridx_main_v18 (ix2 b f) k = ix2 k f := fun k => funext fun a => Fin.ext (by
    match a with
    | ⟨0, _⟩ => rfl
    | ⟨1, _⟩ => rfl)
  have el19 : ∀ k : Fin 1025, lidx_main_v19 (ix2 b f) k = ix2 b k := fun k => funext fun a => Fin.ext (by
    match a with
    | ⟨0, _⟩ => rfl
    | ⟨1, _⟩ => rfl)
  have er19 : ∀ k : Fin 1025, ridx_main_v19 (ix2 b f) k = ix2 k f := fun k => funext fun a => Fin.ext (by
    match a with
    | ⟨0, _⟩ => rfl
    | ⟨1, _⟩ => rfl)
  have el21 : ∀ k : Fin 1025, lidx_main_v21 (ix2 b f) k = ix2 b k := fun k => funext fun a => Fin.ext (by
    match a with
    | ⟨0, _⟩ => rfl
    | ⟨1, _⟩ => rfl)
  have er21 : ∀ k : Fin 1025, ridx_main_v21 (ix2 b f) k = ix2 k f := fun k => funext fun a => Fin.ext (by
    match a with
    | ⟨0, _⟩ => rfl
    | ⟨1, _⟩ => rfl)
  have el22 : ∀ k : Fin 1025, lidx_main_v22 (ix2 b f) k = ix2 b k := fun k => funext fun a => Fin.ext (by
    match a with
    | ⟨0, _⟩ => rfl
    | ⟨1, _⟩ => rfl)
  have er22 : ∀ k : Fin 1025, ridx_main_v22 (ix2 b f) k = ix2 k f := fun k => funext fun a => Fin.ext (by
    match a with
    | ⟨0, _⟩ => rfl
    | ⟨1, _⟩ => rfl)
  have fl16 : ∀ (k : Fin 1025) (n : Fin 2048), lidx_main_v16 (ix2 k f) n = ix2 k n := fun k n => funext fun a => Fin.ext (by
    match a with
    | ⟨0, _⟩ => rfl
    | ⟨1, _⟩ => rfl)
  have fr16 : ∀ (k : Fin 1025) (n : Fin 2048), ridx_main_v16 (ix2 k f) n = ix2 f n := fun k n => funext fun a => Fin.ext (by
    match a with
    | ⟨0, _⟩ => rfl
    | ⟨1, _⟩ => rfl)
  have fl17 : ∀ (k : Fin 1025) (n : Fin 2048), lidx_main_v17 (ix2 k f) n = ix2 k n := fun k n => funext fun a => Fin.ext (by
    match a with
    | ⟨0, _⟩ => rfl
    | ⟨1, _⟩ => rfl)
  have fr17 : ∀ (k : Fin 1025) (n : Fin 2048), ridx_main_v17 (ix2 k f) n = ix2 f n := fun k n => funext fun a => Fin.ext (by
    match a with
    | ⟨0, _⟩ => rfl
    | ⟨1, _⟩ => rfl)
  rw [val_main_v28_apply, val_main_v27_apply, val_main_v26_apply, val_main_v24_apply, val_main_v25_apply, val_main_v20_apply,
    val_main_v23_apply, val_main_v18_apply, val_main_v19_apply, val_main_v21_apply, val_main_v22_apply, ei]
  simp only [val_main_v16_apply, val_main_v17_apply, el18, er18, el19, er19, el21, er21, el22, er22, fl16, fr16, fl17, fr17, frames_apply]
  rfl

end Cert.ReferenceIdeal.Direct

end
-- ==== Proof.lean ====
/-
  The constant-Q magnitude computed two ways is one function on the extended reals.

  The kernel program frames the signal without materialising the frames: with the signal as rows of 512 samples, frame
  `f` is rows `f, f + 1, f + 2, f + 3`, so four row-shifted copies of the rows, each multiplied by the matching 512 rows
  of the transposed cosine / sine table and added up, give the frame's 1025 Fourier coefficients; two more products with
  the transposed `kr` / `ki` and `√(re² + im²)` give the magnitude, block of 512 frames by block. The reference gathers
  the frames, contracts them with the tables over all 2048 samples at once, multiplies by `kr` / `ki` from the left and
  takes the same magnitude. Both results are `Cert.Cqt.mag` of the arguments (Proof/Spec.lean): a sum over 2048 samples
  is the sum of its four blocks of 512, products and sums commute, and the changes of float format are the identity.
  Nothing needs the inputs to be finite, so the precondition is not opened.
  Proof/KernelBlock.lean reads one output block entry by entry, Proof/KernelArray.lean the whole kernel program,
  Proof/Reference.lean the reference; here the five claims are assembled. The ideal pass rewrote nothing, so
  `preserves` is `True`.
-/
import proofs.«155860_j64733747085470_1_alg».proof.Defs
import proofs.«155860_j64733747085470_1_alg».proof.Proof.Gen.Kernel
import proofs.«155860_j64733747085470_1_alg».proof.Proof.Gen.Kernel.Skeleton
import proofs.«155860_j64733747085470_1_alg».proof.Proof.Gen.Kernel.Launch
import proofs.«155860_j64733747085470_1_alg».proof.Proof.Gen.Kernel.Points
import proofs.«155860_j64733747085470_1_alg».proof.Proof.Gen.Kernel.Frame
import proofs.«155860_j64733747085470_1_alg».proof.Proof.Gen.KernelIdeal
import proofs.«155860_j64733747085470_1_alg».proof.Proof.Gen.KernelIdeal.Skeleton
import proofs.«155860_j64733747085470_1_alg».proof.Proof.Gen.KernelIdeal.Launch
import proofs.«155860_j64733747085470_1_alg».proof.Proof.Gen.KernelIdeal.Points
import proofs.«155860_j64733747085470_1_alg».proof.Proof.Gen.KernelIdeal.Frame
import proofs.«155860_j64733747085470_1_alg».proof.Proof.Gen.ReferenceIdeal
import proofs.«155860_j64733747085470_1_alg».proof.Proof.Gen.Pre_finite_inputs
import proofs.«155860_j64733747085470_1_alg».proof.Proof.Gen.ReferenceIdeal.Run
import proofs.«155860_j64733747085470_1_alg».proof.Proof.Gen.ReferenceIdeal.Read
import proofs.«155860_j64733747085470_1_alg».proof.Proof.KernelArray
import proofs.«155860_j64733747085470_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the magnitude of the (agreeing) arguments in their result buffer. -/
theorem algebraic : Cert.algebraic_KernelIdeal_ReferenceIdeal := by
  intro m ρ m' ρ' _ hagree
  refine ⟨fun c => Cert.Cqt.mag (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Blocked.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v28_eq, Cert.ReferenceIdeal.Direct.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
